-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S320000x128 : Shape := ⟨2, ![320000, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S320000x128 : S_.BroadcastsInDim S320000x128 (![] : Fin 0 → Fin S320000x128.rank)
  reducesTo_S320000x128_S_d0_1 : S320000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S128x1 .f32) (main_arg5 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S320000x128 .f32) (main_arg1 : FVec F S320000x128 .f32) (main_arg2 : FVec F S256x128 .f32) (main_arg3 : FVec F S128 .f32) (main_arg4 : FVec F S128x1 .f32) (main_arg5 : FVec F S1 .f32) : IVec S_ 1 :=
  let main_v0 : FVec F S320000x128 .f32 := Host.absf main_arg0
  let main_cst : FVec F S_ .f32 := constant S_ .f32 0x7F800000#32
  let main_v1 : FVec F S320000x128 .f32 := broadcastInDim S320000x128 ![] bcast_S_S320000x128 main_cst
  let main_v2 : IVec S320000x128 1 := cmpf .olt main_v0 main_v1
  let main_c : IVec S_ 1 := constantI S_ 1 1#1
  let main_v3 : IVec S_ 1 := (fun x v => Host.reduce IntOp.andi x v reducesTo_S320000x128_S_d0_1 h_S_) main_v2 main_c
  let main_v4 : FVec F S320000x128 .f32 := Host.absf main_arg1
  let main_cst_0 : FVec F S_ .f32 := constant S_ .f32 0x7F800000#32
  let main_v5 : FVec F S320000x128 .f32 := broadcastInDim S320000x128 ![] bcast_S_S320000x128 main_cst_0
  let main_v6 : IVec S320000x128 1 := cmpf .olt main_v4 main_v5
  let main_c_1 : IVec S_ 1 := constantI S_ 1 1#1
  let main_v7 : IVec S_ 1 := (fun x v => Host.reduce IntOp.andi x v reducesTo_S320000x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S320000x128 : Shape := ⟨2, ![320000, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S128x128 : Shape := ⟨2, ![128, 128]⟩
abbrev S1x128 : Shape := ⟨2, ![1, 128]⟩
abbrev S1x1 : Shape := ⟨2, ![1, 1]⟩
abbrev S320000x1 : Shape := ⟨2, ![320000, 1]⟩
abbrev S2560x128 : Shape := ⟨2, ![2560, 128]⟩
abbrev S2560x1 : Shape := ⟨2, ![2560, 1]⟩
abbrev S2560 : Shape := ⟨1, ![2560]⟩

abbrev nBuf : Space → Nat
  | .hbm => 12
  | .vmem => 11
  | .smem => 0
  | _ => 0

abbrev bufTy : (tb : Table) → Fin (tcTables nBuf tb) → BufTy
  | .hbm, ⟨0, _⟩ => ⟨S320000x128, .f32⟩
  | .hbm, ⟨1, _⟩ => ⟨S320000x128, .f32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S128x128, .f32⟩
  | .hbm, ⟨7, _⟩ => ⟨S128x128, .f32⟩
  | .hbm, ⟨8, _⟩ => ⟨S1x128, .f32⟩
  | .hbm, ⟨9, _⟩ => ⟨S1x128, .f32⟩
  | .hbm, ⟨10, _⟩ => ⟨S1x1, .f32⟩
  | .hbm, ⟨11, _⟩ => ⟨S320000x1, .f32⟩
  | .local _ .vmem, ⟨0, _⟩ => ⟨S2560x128, .f32⟩
  | .local _ .vmem, ⟨1, _⟩ => ⟨S2560x128, .f32⟩
  | .local _ .vmem, ⟨2, _⟩ => ⟨S2560x128, .f32⟩
  | .local _ .vmem, ⟨3, _⟩ => ⟨S2560x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x1, .f32⟩
  | .local _ .vmem, ⟨9, _⟩ => ⟨S2560x1, .f32⟩
  | .local _ .vmem, ⟨10, _⟩ => ⟨S2560x1, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2560x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S256x128_S128x128_0_0 : S256x128.Slices ![0, 0] S128x128
  slices_S256x128_S128x128_128_0 : S256x128.Slices ![128, 0] S128x128
  shapeCasts_S128_S1x128 : S128.ShapeCasts S1x128
  shapeCasts_S128x1_S1x128 : S128x1.ShapeCasts S1x128
  shapeCasts_S1_S1x1 : S1.ShapeCasts S1x1
  inb_S2560x128_S2560x128_0_0 : ∀ a, (![0, 0] : Fin 2 → Nat) a + S2560x128.size a ≤ S2560x128.size a
  h_S2560x128 : 0 < S2560x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2560x128 : S1x128.Broadcasts S2560x128
  reduces_S2560x128_S2560 : S2560x128.Reduces [1] S2560
  shapeCasts_S2560_S2560x1 : S2560.ShapeCasts S2560x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2560x1 : S1x1.Broadcasts S2560x1
  inb_S2560x1_S2560x1_0_0 : ∀ a, (![0, 0] : Fin 2 → Nat) a + S2560x1.size a ≤ S2560x1.size a
  h_S2560x1 : 0 < S2560x1.numel
  dot_S2560x128_S128x128_S2560x128_1_0_0_1_n_n_wf : DotDims.WF S2560x128 S128x128 S2560x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x128.size a ≤ S320000x128.size a
  hwx0_0 : ∀ i : grid0.Coords, EltTy.bits .f32 = 32 ∨ (Rect.block (s := S320000x128) S2560x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x128.size a ≤ S320000x128.size a
  hwx0_1 : ∀ i : grid0.Coords, EltTy.bits .f32 = 32 ∨ (Rect.block (s := S320000x128) S2560x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2560x1.size a ≤ S320000x1.size a
  hwx0_7 : ∀ i : grid0.Coords, EltTy.bits .f32 = 32 ∨ (Rect.block (s := S320000x1) S2560x1.size (cc0_transform_7 i) (hinb0_7 i)).WholeWords (EltTy.packing .f32)

variable [Facts₀]

def dot_S2560x128_S128x128_S2560x128_1_0_0_1_n_n : DotDims S2560x128 S128x128 S2560x128 where
  lhsContracting := [1]
  rhsContracting := [0]
  lhsNonContracting := [0]
  rhsNonContracting := [1]
  lhsBatch := []
  rhsBatch := []
  wf := dot_S2560x128_S128x128_S2560x128_1_0_0_1_n_n_wf

abbrev win0_0 : Pipeline.Window sig grid0 :=
  Pipeline.Window.ofSpec (Memref.whole main_arg0) S2560x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2560x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S2560x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S320000x128 : Shape := ⟨2, ![320000, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S320000x256 : Shape := ⟨2, ![320000, 256]⟩
abbrev S1x128 : Shape := ⟨2, ![1, 128]⟩
abbrev S_ : Shape := ⟨0, ![]⟩
abbrev S320000x1 : Shape := ⟨2, ![320000, 1]⟩
abbrev S1x1 : Shape := ⟨2, ![1, 1]⟩

abbrev nBuf : Space → Nat
  | .hbm => 18
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000x128, .f32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S320000x256, .f32⟩
  | .hbm, ⟨7, _⟩ => ⟨S320000x128, .f32⟩
  | .hbm, ⟨8, _⟩ => ⟨S1x128, .f32⟩
  | .hbm, ⟨9, _⟩ => ⟨S320000x128, .f32⟩
  | .hbm, ⟨10, _⟩ => ⟨S320000x128, .f32⟩
  | .hbm, ⟨11, _⟩ => ⟨S_, .f32⟩
  | .hbm, ⟨12, _⟩ => ⟨S320000x128, .f32⟩
  | .hbm, ⟨13, _⟩ => ⟨S320000x128, .f32⟩
  | .hbm, ⟨14, _⟩ => ⟨S320000x1, .f32⟩
  | .hbm, ⟨15, _⟩ => ⟨S1x1, .f32⟩
  | .hbm, ⟨16, _⟩ => ⟨S320000x1, .f32⟩
  | .hbm, ⟨17, _⟩ => ⟨S320000x1, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  concatenates_S320000x128_S320000x128_S320000x256_d1 : Shape.Concatenates [S320000x128, S320000x128] S320000x256 1
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  dot_S320000x256_S256x128_S320000x128_1_0_0_1_n_n_wf : DotDims.WF S320000x256 S256x128 S320000x128 [1] [0] [0] [1] [] []
  dot_S320000x128_S128x1_S320000x1_1_0_0_1_n_n_wf : DotDims.WF S320000x128 S128x1 S320000x1 [1] [0] [0] [1] [] []

variable [Facts₀]

def dot_S320000x256_S256x128_S320000x128_1_0_0_1_n_n : DotDims S320000x256 S256x128 S320000x128 where
  lhsContracting := [1]
  rhsContracting := [0]
  lhsNonContracting := [0]
  rhsNonContracting := [1]
  lhsBatch := []
  rhsBatch := []
  wf := dot_S320000x256_S256x128_S320000x128_1_0_0_1_n_n_wf
def dot_S320000x128_S128x1_S320000x1_1_0_0_1_n_n : DotDims S320000x128 S128x1 S320000x1 where
  lhsContracting := [1]
  rhsContracting := [0]
  lhsNonContracting := [0]
  rhsNonContracting := [1]
  lhsBatch := []
  rhsBatch := []
  wf := dot_S320000x128_S128x1_S320000x1_1_0_0_1_n_n_wf

class Facts : Prop extends Facts₀ where

variable [Facts]
-- ==== Proof.BlockScore.lean ====
/-
  What the kernel body stores for one block of 2560 edges, read at a row.

  The body multiplies the block of source features by the top half of the first-layer matrix and the
  block of destination features by the bottom half, adds the two products and the bias row, rectifies,
  multiplies each row by the output weights laid out as a row, sums along the lanes, and adds the output
  bias. Row `p` of what it stores is therefore
      Σ_h max (Σ_f x0[p,f]·wa[f,h] + Σ_f x1[p,f]·wb[f,h] + b1[0,h]) 0 · w2[0,h] + b2[0,0]
  of the body's seven loaded blocks: each matrix product into a zero accumulator is the plain sum over the
  contracted axis, and the lane reduction from zero is the plain sum over the lanes.
-/
import proofs.«120703_g24455543783494_cont_8to1_600_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.EdgeScore.Block

open Idealize.ShloMosaic Idealize.ShloMosaic.ValueIdx Cert.KernelIdeal Cert.KernelIdeal.Gen

/-! ## The matrix product of a block with a half of the weights, at an entry -/

theorem lhs_row (i : S2560x128.Idx) (q : dot_S2560x128_S128x128_S2560x128_1_0_0_1_n_n.contr.Idx) :
    (dot_S2560x128_S128x128_S2560x128_1_0_0_1_n_n.lhsIdx i q 0).val = (i 0).val := by
  unfold DotDims.lhsIdx
  rw [dif_neg (show ¬(0 : Fin S2560x128.rank) ∈ dot_S2560x128_S128x128_S2560x128_1_0_0_1_n_n.lhsBatch by decide), dif_pos (show (0 : Fin S2560x128.rank) ∈ dot_S2560x128_S128x128_S2560x128_1_0_0_1_n_n.lhsNonContracting by decide)]
  rfl
theorem lhs_contracted (i : S2560x128.Idx) (q : dot_S2560x128_S128x128_S2560x128_1_0_0_1_n_n.contr.Idx) :
    (dot_S2560x128_S128x128_S2560x128_1_0_0_1_n_n.lhsIdx i q 1).val = (q ⟨0, by decide⟩).val :=
  dot_S2560x128_S128x128_S2560x128_1_0_0_1_n_n.lhsIdx_val_of_single rfl i q
theorem rhs_contracted (i : S2560x128.Idx) (q : dot_S2560x128_S128x128_S2560x128_1_0_0_1_n_n.contr.Idx) :
    (dot_S2560x128_S128x128_S2560x128_1_0_0_1_n_n.rhsIdx i q 0).val = (q ⟨0, by decide⟩).val :=
  dot_S2560x128_S128x128_S2560x128_1_0_0_1_n_n.rhsIdx_val_of_single rfl i q
theorem rhs_column (i : S2560x128.Idx) (q : dot_S2560x128_S128x128_S2560x128_1_0_0_1_n_n.contr.Idx) :
    (dot_S2560x128_S128x128_S2560x128_1_0_0_1_n_n.rhsIdx i q 1).val = (i 1).val := by
  unfold DotDims.rhsIdx
  rw [dif_neg (show ¬(1 : Fin S128x128.rank) ∈ dot_S2560x128_S128x128_S2560x128_1_0_0_1_n_n.rhsBatch by decide), dif_pos (show (1 : Fin S128x128.rank) ∈ dot_S2560x128_S128x128_S2560x128_1_0_0_1_n_n.rhsNonContracting by decide)]
  rfl

/-- A block times a weight half, accumulated from zero: entry `(p, h)` is the sum over the 128 features. -/
theorem product_apply (x : FVec Ideal S2560x128 .f32) (w : FVec Ideal S128x128 .f32) (p : Fin 2560) (h : Fin 128) :
    matmul dot_S2560x128_S128x128_S2560x128_1_0_0_1_n_n none x w (constant (F := Ideal) S2560x128 .f32 0x00000000#32) (ix2 p h)
      = ∑ f : Fin 128, x (ix2 p f) * w (ix2 f h) := by
  simp only [matmul]
  rw [Ideal.matmul_constant_zero_apply, ← Equiv.sum_comp (contrEquiv1 dot_S2560x128_S128x128_S2560x128_1_0_0_1_n_n 128 rfl rfl).symm]
  refine Finset.sum_congr rfl fun k _ => ?_
  have hk := contrEquiv1_symm_val dot_S2560x128_S128x128_S2560x128_1_0_0_1_n_n 128 rfl rfl k
  have el : dot_S2560x128_S128x128_S2560x128_1_0_0_1_n_n.lhsIdx (ix2 p h) ((contrEquiv1 dot_S2560x128_S128x128_S2560x128_1_0_0_1_n_n 128 rfl rfl).symm k) = ix2 p k := funext fun a => Fin.ext (by
    match a with
    | ⟨0, _⟩ => exact lhs_row _ _
    | ⟨1, _⟩ => exact (lhs_contracted _ _).trans hk)
  have er : dot_S2560x128_S128x128_S2560x128_1_0_0_1_n_n.rhsIdx (ix2 p h) ((contrEquiv1 dot_S2560x128_S128x128_S2560x128_1_0_0_1_n_n 128 rfl rfl).symm k) = ix2 k h := funext fun a => Fin.ext (by
    match a with
    | ⟨0, _⟩ => exact (rhs_contracted _ _).trans hk
    | ⟨1, _⟩ => exact rhs_column _ _)
  rw [el, er]

/-! ## The lane sum and the column it is laid out as -/

/-- The sum along the lanes, started from zero, at row `p`. -/
theorem laneSum_apply (v : FVec Ideal S2560x128 .f32) (hacc : (0x00000000#32 : BitVec 32) = 0x00000000#32) (p : Fin 2560) :
    multiReduction .add [1] S2560 v 0x00000000#32 reduces_S2560x128_S2560 (.inl rfl) hacc (ix1 p) = ∑ h : Fin 128, v (ix2 p h) := by
  refine (Ideal.multiReduction_add_single v 0x00000000#32 reduces_S2560x128_S2560 (.inl rfl) hacc (ix1 p)).trans ?_
  refine Finset.sum_congr rfl fun h _ => congrArg v ?_
  funext a
  match a with
  | ⟨0, _⟩ => exact Fin.ext rfl
  | ⟨1, _⟩ => exact Fin.ext rfl

/-- A vector of 2560 laid out as a column: row `p` of the column is entry `p` of the vector. -/
theorem column_apply {α : Type} (v : S2560.Idx → α) (p : Fin 2560) (q : Fin 1) :
    shapeCast S2560x1 v shapeCasts_S2560_S2560x1 (ix2 p q) = v (ix1 p) :=
  shapeCast_apply v shapeCasts_S2560_S2560x1 _ _ (by
    have hq : q.val = 0 := by omega
    rw [Shape.rowMajor_val_two, Shape.rowMajor_val_one]
    show p.val = p.val * 1 + q.val
    rw [hq, Nat.mul_one, Nat.add_zero])

/-- The one output bias spread down the column. -/
theorem spread_apply {α : Type} (v : S1x1.Idx → α) (p : Fin 2560) (q : Fin 1) :
    broadcastTo S2560x1 v broadcasts_S1x1_S2560x1 (ix2 p q) = v (ix2 (0 : Fin 1) (0 : Fin 1)) := by
  refine broadcastTo_apply v broadcasts_S1x1_S2560x1 (ix2 p q) (ix2 (0 : Fin 1) (0 : Fin 1)) fun ax => ?_
  match ax with
  | ⟨0, _⟩ => rfl
  | ⟨1, _⟩ => rfl

/-! ## The payload -/

section AnyValues
variable {F : FTy → Type} [FloatOps F]

/-- The rectified first layer of the block, as the body computes it. -/
def hiddenBlock (x0 : Vec F S2560x128 .f32) (wa : Vec F S128x128 .f32) (x1 : Vec F S2560x128 .f32) (wb : Vec F S128x128 .f32)
    (b1 : Vec F S1x128 .f32) : FVec F S2560x128 .f32 :=
  maximumf
    (addf
      (addf (matmul dot_S2560x128_S128x128_S2560x128_1_0_0_1_n_n none x0 (shapeCast S128x128 wa shapeCasts_S128x128_S128x128) (constant S2560x128 .f32 0x00000000#32))
        (matmul dot_S2560x128_S128x128_S2560x128_1_0_0_1_n_n none x1 (shapeCast S128x128 wb shapeCasts_S128x128_S128x128) (constant S2560x128 .f32 0x00000000#32)))
      (broadcastTo S2560x128 (shapeCast S1x128 b1 shapeCasts_S1x128_S1x128) broadcasts_S1x128_S2560x128))
    (broadcast S2560x128 (Scalar.ofBits .f32 0x00000000#32))

/-- The stored payload is the lane sum of the rectified layer against the output row, plus the output bias. -/
theorem payload_eq (x0 : Vec F S2560x128 .f32) (wa : Vec F S128x128 .f32) (x1 : Vec F S2560x128 .f32) (wb : Vec F S128x128 .f32)
    (b1 w2 : Vec F S1x128 .f32) (b2 : Vec F S1x1 .f32) :
    k0_pay1 x0 wa x1 wb b1 w2 b2
      = addf (shapeCast S2560x1
          (multiReduction .add [1] S2560 (mulf (hiddenBlock x0 wa x1 wb b1)
            (broadcastTo S2560x128 (shapeCast S1x128 w2 shapeCasts_S1x128_S1x128) broadcasts_S1x128_S2560x128))
            0x00000000#32 reduces_S2560x128_S2560 (.inl rfl) rfl) shapeCasts_S2560_S2560x1)
        (broadcastTo S2560x1 (shapeCast S1x1 b2 shapeCasts_S1x1_S1x1) broadcasts_S1x1_S2560x1) := rfl

end AnyValues

variable (x0 : Vec Ideal S2560x128 .f32) (wa : Vec Ideal S128x128 .f32) (x1 : Vec Ideal S2560x128 .f32) (wb : Vec Ideal S128x128 .f32)
  (b1 w2 : Vec Ideal S1x128 .f32) (b2 : Vec Ideal S1x1 .f32)

theorem hiddenBlock_apply (p : Fin 2560) (h : Fin 128) :
    hiddenBlock (F := Ideal) x0 wa x1 wb b1 (ix2 p h)
      = max ((∑ f : Fin 128, x0 (ix2 p f) * wa (ix2 f h)) + (∑ f : Fin 128, x1 (ix2 p f) * wb (ix2 f h)) + b1 (ix2 (0 : Fin 1) h)) 0 := by
  unfold hiddenBlock
  simp only [shapeCast_self]
  rw [maximumf_apply, addf_apply, addf_apply, product_apply, product_apply, broadcastTo_1b_ab_apply, broadcast_apply]
  show max _ (Ideal.ofBits .f32 0x00000000#32) = _
  rw [Ideal.ofBits_zero_f32]

/-- Row `p` of the stored payload. -/
theorem payload_apply (p : Fin 2560) (q : Fin 1) :
    k0_pay1 (F := Ideal) x0 wa x1 wb b1 w2 b2 (ix2 p q)
      = (∑ h : Fin 128, max ((∑ f : Fin 128, x0 (ix2 p f) * wa (ix2 f h)) + (∑ f : Fin 128, x1 (ix2 p f) * wb (ix2 f h))
            + b1 (ix2 (0 : Fin 1) h)) 0 * w2 (ix2 (0 : Fin 1) h))
          + b2 (ix2 (0 : Fin 1) (0 : Fin 1)) := by
  rw [payload_eq, addf_apply, column_apply, spread_apply, laneSum_apply]
  simp only [shapeCast_self, mulf_apply, hiddenBlock_apply, broadcastTo_1b_ab_apply]

end Cert.EdgeScore.Block

end
-- ==== Proof.EdgeScore.lean ====
/-
  The edge scorer as ONE function of its six argument arrays, over the extended reals.

  For an edge `e` and a hidden unit `h` the first layer is
      hidden e h = max (Σ_f src[e,f]·W1[f,h] + Σ_f dst[e,f]·W1[128+f,h] + b1[h]) 0,
  the first-layer weight matrix being cut into its top half (rows 0..127, which meet the source
  features) and its bottom half (rows 128..255, which meet the destination features); the score is
      score e = Σ_h hidden e h · W2[h,0] + b2[0].
  One law joins the two programs: a sum over the 256 rows is the sum over the top half plus the sum
  over the bottom half (`sum_halves`). It holds in every commutative additive monoid, the extended
  reals included, so nothing here asks the inputs to be finite.
-/
import Idealize.ShloMosaic.PureOps.Ideal
import Idealize.ShloMosaic.Lib.ValueIdx
import Mathlib.Algebra.BigOperators.Fin

noncomputable section

namespace Cert.EdgeScore

open Idealize.ShloMosaic Idealize.ShloMosaic.ValueIdx

/-- Row `f` of the top half of the 256-row weight matrix. -/
def topRow (f : Fin 128) : Fin 256 := ⟨f.val, by omega⟩
/-- Row `f` of the bottom half: row `128 + f` of the whole matrix. -/
def botRow (f : Fin 128) : Fin 256 := ⟨128 + f.val, by omega⟩

@[simp] theorem topRow_val (f : Fin 128) : (topRow f).val = f.val := rfl
@[simp] theorem botRow_val (f : Fin 128) : (botRow f).val = 128 + f.val := rfl

/-- A sum over the 256 rows is the sum over the top half plus the sum over the bottom half. -/
theorem sum_halves {M : Type*} [AddCommMonoid M] (g : Fin 256 → M) :
    ∑ k : Fin 256, g k = (∑ f : Fin 128, g (topRow f)) + ∑ f : Fin 128, g (botRow f) := by
  have h := Fin.sum_univ_add (M := M) (a := 128) (b := 128) g
  rw [h]
  congr 1

variable (src dst : (⟨2, ![320000, 128]⟩ : Shape).Idx → EReal) (W1 : (⟨2, ![256, 128]⟩ : Shape).Idx → EReal)
  (b1 : (⟨1, ![128]⟩ : Shape).Idx → EReal) (W2 : (⟨2, ![128, 1]⟩ : Shape).Idx → EReal) (b2 : (⟨1, ![1]⟩ : Shape).Idx → EReal)

/-- The first layer at edge `e` and hidden unit `h`: the two half contractions, the bias, the rectifier. -/
def hidden (e : Fin 320000) (h : Fin 128) : EReal :=
  max ((∑ f : Fin 128, src (ix2 e f) * W1 (ix2 (topRow f) h)) + (∑ f : Fin 128, dst (ix2 e f) * W1 (ix2 (botRow f) h))
    + b1 (ix1 h)) 0

/-- The score of every edge: the hidden row against the one output column, plus the output bias. -/
def score : (⟨2, ![320000, 1]⟩ : Shape).Idx → EReal := fun i =>
  (∑ h : Fin 128, hidden src dst W1 b1 (i 0) h * W2 (ix2 h (0 : Fin 1))) + b2 (ix1 (0 : Fin 1))

end Cert.EdgeScore

end
-- ==== Proof.KernelScore.lean ====
/-
  The kernel's result array is the edge score.

  Before the call the host cuts the first-layer matrix into its top and bottom halves and lays the first
  bias, the output column and the output bias out as a row, a row and a one-by-one matrix. The call runs
  125 grid points; point `t` is handed rows `2560·t … 2560·t + 2559` of the source and of the destination
  features and the whole of the five small arrays, and writes back rows `2560·t …` of the result. Row `p`
  of what point `t` writes back is the score of edge `2560·t + p` (the block payload read at a row, each
  loaded block read back through its window), and the 125 blocks of 2560 rows cover the 320000 edges, so
  the result array after the run is the score of every edge.
-/
import proofs.«120703_g24455543783494_cont_8to1_600_2_alg».proof.Proof.Gen.KernelIdeal.Value
import proofs.«120703_g24455543783494_cont_8to1_600_2_alg».proof.Proof.BlockScore
import proofs.«120703_g24455543783494_cont_8to1_600_2_alg».proof.Proof.EdgeScore
import Idealize.ShloMosaic.Lib.Pipeline.Value
import Idealize.ShloMosaic.Lib.StableHlo.Run
import Idealize.ShloMosaic.Lib.ValueLayout

noncomputable section

namespace Cert.EdgeScore.Kernel

open Cert.KernelIdeal Cert.KernelIdeal.Gen Idealize.ShloMosaic Idealize.ShloMosaic.TcCoe Idealize.SL.Sem
open Idealize.ShloMosaic.ValueIdx Idealize.ShloMosaic.StableHlo Cert.EdgeScore
open Idealize.ShloMosaic.Pipeline (Dat)

variable (m : (ℓ : Loc nD τ sig) → Buf (Elt Ideal) ℓ) (ρ : Dev nD → PrngReg)

/-- The score of every edge, of core `c`'s six argument arrays as launched. -/
abbrev scoreOf (c : Dev nD) : S320000x1.Idx → EReal :=
  score (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## What the host leaves for the call -/

theorem topHalf_eq (c : Dev nD) : (V m c main_v0 : S128x128.Idx → EReal)
    = extractStridedSlice S128x128 ![0, 0] (m ((c : Thread nD τ).loc main_arg2)) slices_S256x128_S128x128_0_0 := by
  dsimp only [Gen.V, Gen.hostOps0]; after_results
theorem botHalf_eq (c : Dev nD) : (V m c main_v1 : S128x128.Idx → EReal)
    = extractStridedSlice S128x128 ![128, 0] (m ((c : Thread nD τ).loc main_arg2)) slices_S256x128_S128x128_128_0 := by
  dsimp only [Gen.V, Gen.hostOps0]; after_results
theorem biasRow_eq (c : Dev nD) : (V m c main_v2 : S1x128.Idx → EReal)
    = shapeCast S1x128 (m ((c : Thread nD τ).loc main_arg3)) shapeCasts_S128_S1x128 := by
  dsimp only [Gen.V, Gen.hostOps0]; after_results; rfl
theorem outRow_eq (c : Dev nD) : (V m c main_v3 : S1x128.Idx → EReal)
    = shapeCast S1x128 (m ((c : Thread nD τ).loc main_arg4)) shapeCasts_S128x1_S1x128 := by
  dsimp only [Gen.V, Gen.hostOps0]; after_results; rfl
theorem outBias_eq (c : Dev nD) : (V m c main_v4 : S1x1.Idx → EReal)
    = shapeCast S1x1 (m ((c : Thread nD τ).loc main_arg5)) shapeCasts_S1_S1x1 := by
  dsimp only [Gen.V, Gen.hostOps0]; after_results; rfl

/-- Entry `(f, h)` of the top half is entry `(f, h)` of the whole matrix. -/
theorem topHalf_apply (c : Dev nD) (f h : Fin 128) : (V m c main_v0 : S128x128.Idx → EReal) (ix2 f h)
    = (m ((c : Thread nD τ).loc main_arg2) : S256x128.Idx → EReal) (ix2 (topRow f) h) := by
  rw [topHalf_eq]
  exact slice2_axis0_apply 0 _ _ f h (topRow f) (Nat.zero_add _).symm
/-- Entry `(f, h)` of the bottom half is entry `(128 + f, h)` of the whole matrix. -/
theorem botHalf_apply (c : Dev nD) (f h : Fin 128) : (V m c main_v1 : S128x128.Idx → EReal) (ix2 f h)
    = (m ((c : Thread nD τ).loc main_arg2) : S256x128.Idx → EReal) (ix2 (botRow f) h) := by
  rw [botHalf_eq]
  exact slice2_axis0_apply 128 _ _ f h (botRow f) rfl
/-- The bias laid out as a row. -/
theorem biasRow_apply (c : Dev nD) (h : Fin 128) : (V m c main_v2 : S1x128.Idx → EReal) (ix2 (0 : Fin 1) h)
    = (m ((c : Thread nD τ).loc main_arg3) : S128.Idx → EReal) (ix1 h) := by
  rw [biasRow_eq]
  exact shapeCast_a_1a_apply _ _ 0 h
/-- The output column laid out as a row: lane `h` of the row is row `h` of the column. -/
theorem outRow_apply (c : Dev nD) (h : Fin 128) : (V m c main_v3 : S1x128.Idx → EReal) (ix2 (0 : Fin 1) h)
    = (m ((c : Thread nD τ).loc main_arg4) : S128x1.Idx → EReal) (ix2 h (0 : Fin 1)) := by
  rw [outRow_eq]
  refine shapeCast_apply _ shapeCasts_S128x1_S1x128 _ _ ?_
  rw [Shape.rowMajor_val_two, Shape.rowMajor_val_two]
  show h.val * 1 + 0 = 0 * 128 + h.val
  omega
/-- The output bias as a one-by-one matrix. -/
theorem outBias_apply (c : Dev nD) : (V m c main_v4 : S1x1.Idx → EReal) (ix2 (0 : Fin 1) (0 : Fin 1))
    = (m ((c : Thread nD τ).loc main_arg5) : S1.Idx → EReal) (ix1 (0 : Fin 1)) := by
  rw [outBias_eq]
  exact shapeCast_a_1a_apply _ _ 0 0

/-! ## Each window's block at a grid point -/

/-- The printed index maps over the 125 points: the two feature windows and the result window move one
    block of rows per point; the five small windows stay on their one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of the source block at point `t` is row `2560·t + p` of the source features. -/
theorem srcBlock_apply (c : Dev nD) (t : Fin cfg0.N) (p : Fin 2560) (f : Fin 128) (k : Fin 320000) (hk : k.val = t.val * 2560 + p.val) :
    (iblk m c 0 t : Vec Ideal S2560x128 .f32) (ix2 p f) = (m ((c : Thread nD τ).loc main_arg0) : S320000x128.Idx → EReal) (ix2 k f) := by
  obtain ⟨e0, e1, -⟩ := index_facts t
  unfold iblk
  rw [View.read_apply]
  show V m c main_arg0 _ = _
  rw [V_main_arg0]
  congr 1
  funext a
  apply Fin.ext
  match a with
  | ⟨0, _⟩ => show win0_0.index t (0 : Fin 2) * 2560 + 1 * p.val = k.val; rw [e0, hk]; omega
  | ⟨1, _⟩ => show win0_0.index t (1 : Fin 2) * 128 + 1 * f.val = f.val; rw [e1]; omega

/-- Row `p` of the destination block at point `t` is row `2560·t + p` of the destination features. -/
theorem dstBlock_apply (c : Dev nD) (t : Fin cfg0.N) (p : Fin 2560) (f : Fin 128) (k : Fin 320000) (hk : k.val = t.val * 2560 + p.val) :
    (iblk m c 1 t : Vec Ideal S2560x128 .f32) (ix2 p f) = (m ((c : Thread nD τ).loc main_arg1) : S320000x128.Idx → EReal) (ix2 k f) := by
  obtain ⟨-, -, e0, e1, -⟩ := index_facts t
  unfold iblk
  rw [View.read_apply]
  show V m c main_arg1 _ = _
  rw [V_main_arg1]
  congr 1
  funext a
  apply Fin.ext
  match a with
  | ⟨0, _⟩ => show win0_1.index t (0 : Fin 2) * 2560 + 1 * p.val = k.val; rw [e0, hk]; omega
  | ⟨1, _⟩ => show win0_1.index t (1 : Fin 2) * 128 + 1 * f.val = f.val; rw [e1]; omega

/-- The five small windows hand every point the whole of their arrays. -/
theorem topBlock_apply (c : Dev nD) (t : Fin cfg0.N) (f h : Fin 128) :
    (iblk m c 2 t : Vec Ideal S128x128 .f32) (ix2 f h) = (V m c main_v0 : S128x128.Idx → EReal) (ix2 f h) := by
  obtain ⟨-, -, -, -, e0, e1, -⟩ := index_facts t
  unfold iblk
  rw [View.read_apply]
  show V m c main_v0 _ = _
  congr 1
  funext a
  apply Fin.ext
  match a with
  | ⟨0, _⟩ => show win0_2.index t (0 : Fin 2) * 128 + 1 * f.val = f.val; rw [e0]; omega
  | ⟨1, _⟩ => show win0_2.index t (1 : Fin 2) * 128 + 1 * h.val = h.val; rw [e1]; omega
theorem botBlock_apply (c : Dev nD) (t : Fin cfg0.N) (f h : Fin 128) :
    (iblk m c 3 t : Vec Ideal S128x128 .f32) (ix2 f h) = (V m c main_v1 : S128x128.Idx → EReal) (ix2 f h) := by
  obtain ⟨-, -, -, -, -, -, e0, e1, -⟩ := index_facts t
  unfold iblk
  rw [View.read_apply]
  show V m c main_v1 _ = _
  congr 1
  funext a
  apply Fin.ext
  match a with
  | ⟨0, _⟩ => show win0_3.index t (0 : Fin 2) * 128 + 1 * f.val = f.val; rw [e0]; omega
  | ⟨1, _⟩ => show win0_3.index t (1 : Fin 2) * 128 + 1 * h.val = h.val; rw [e1]; omega
theorem biasBlock_apply (c : Dev nD) (t : Fin cfg0.N) (h : Fin 128) :
    (iblk m c 4 t : Vec Ideal S1x128 .f32) (ix2 (0 : Fin 1) h) = (V m c main_v2 : S1x128.Idx → EReal) (ix2 (0 : Fin 1) h) := by
  obtain ⟨-, -, -, -, -, -, -, -, e0, e1, -⟩ := index_facts t
  unfold iblk
  rw [View.read_apply]
  show V m c main_v2 _ = _
  congr 1
  funext a
  apply Fin.ext
  match a with
  | ⟨0, _⟩ => show win0_4.index t (0 : Fin 2) * 1 + 1 * 0 = 0; rw [e0]
  | ⟨1, _⟩ => show win0_4.index t (1 : Fin 2) * 128 + 1 * h.val = h.val; rw [e1]; omega
theorem outRowBlock_apply (c : Dev nD) (t : Fin cfg0.N) (h : Fin 128) :
    (iblk m c 5 t : Vec Ideal S1x128 .f32) (ix2 (0 : Fin 1) h) = (V m c main_v3 : S1x128.Idx → EReal) (ix2 (0 : Fin 1) h) := by
  obtain ⟨-, -, -, -, -, -, -, -, -, -, e0, e1, -⟩ := index_facts t
  unfold iblk
  rw [View.read_apply]
  show V m c main_v3 _ = _
  congr 1
  funext a
  apply Fin.ext
  match a with
  | ⟨0, _⟩ => show win0_5.index t (0 : Fin 2) * 1 + 1 * 0 = 0; rw [e0]
  | ⟨1, _⟩ => show win0_5.index t (1 : Fin 2) * 128 + 1 * h.val = h.val; rw [e1]; omega
theorem outBiasBlock_apply (c : Dev nD) (t : Fin cfg0.N) :
    (iblk m c 6 t : Vec Ideal S1x1 .f32) (ix2 (0 : Fin 1) (0 : Fin 1)) = (V m c main_v4 : S1x1.Idx → EReal) (ix2 (0 : Fin 1) (0 : Fin 1)) := by
  obtain ⟨-, -, -, -, -, -, -, -, -, -, -, -, e0, e1, -⟩ := index_facts t
  unfold iblk
  rw [View.read_apply]
  show V m c main_v4 _ = _
  congr 1
  funext a
  apply Fin.ext
  match a with
  | ⟨0, _⟩ => show win0_6.index t (0 : Fin 2) * 1 + 1 * 0 = 0; rw [e0]
  | ⟨1, _⟩ => show win0_6.index t (1 : Fin 2) * 1 + 1 * 0 = 0; rw [e1]

/-! ## One block of rows -/

/-- If seven loaded blocks are rows `2560·T …` of the features, the two halves of the first-layer matrix
    and the three small arrays laid out as rows, row `p` of the payload is the score of edge `2560·T + p`. -/
theorem block_row (src dst : (⟨2, ![320000, 128]⟩ : Shape).Idx → EReal) (W1 : (⟨2, ![256, 128]⟩ : Shape).Idx → EReal)
    (b1 : (⟨1, ![128]⟩ : Shape).Idx → EReal) (W2 : (⟨2, ![128, 1]⟩ : Shape).Idx → EReal) (b2 : (⟨1, ![1]⟩ : Shape).Idx → EReal)
    (x0 x1 : Vec Ideal S2560x128 .f32) (wa wb : Vec Ideal S128x128 .f32) (br wr : Vec Ideal S1x128 .f32) (bo : Vec Ideal S1x1 .f32)
    (T : Nat)
    (h0 : ∀ (p : Fin 2560) (f : Fin 128) (k : Fin 320000), k.val = T * 2560 + p.val → x0 (ix2 p f) = src (ix2 k f))
    (h1 : ∀ (p : Fin 2560) (f : Fin 128) (k : Fin 320000), k.val = T * 2560 + p.val → x1 (ix2 p f) = dst (ix2 k f))
    (ha : ∀ f h : Fin 128, wa (ix2 f h) = W1 (ix2 (topRow f) h))
    (hb : ∀ f h : Fin 128, wb (ix2 f h) = W1 (ix2 (botRow f) h))
    (hbr : ∀ h : Fin 128, br (ix2 (0 : Fin 1) h) = b1 (ix1 h))
    (hwr : ∀ h : Fin 128, wr (ix2 (0 : Fin 1) h) = W2 (ix2 h (0 : Fin 1)))
    (hbo : bo (ix2 (0 : Fin 1) (0 : Fin 1)) = b2 (ix1 (0 : Fin 1)))
    (p : Fin 2560) (q : Fin 1) (i : (⟨2, ![320000, 1]⟩ : Shape).Idx) (hi : (i 0).val = T * 2560 + p.val) :
    k0_pay1 (F := Ideal) x0 wa x1 wb br wr bo (ix2 p q) = score src dst W1 b1 W2 b2 i := by
  obtain ⟨e, q', rfl⟩ : ∃ (e : Fin 320000) (q' : Fin 1), i = ix2 e q' := ⟨i 0, i 1, eq_ix2 i⟩
  have he : e.val = T * 2560 + p.val := hi
  rw [Block.payload_apply]
  show _ = (∑ h : Fin 128, hidden src dst W1 b1 e h * W2 (ix2 h (0 : Fin 1))) + b2 (ix1 (0 : Fin 1))
  unfold hidden
  simp only [fun f => h0 p f e he, fun f => h1 p f e he, ha, hb, hbr, hwr, hbo]

/-! ## What a point writes back, the cover, the run -/

theorem hz : (![0, 0] : Fin 2 → Nat) = fun _ => 0 := funext fun a => by fin_cases a <;> rfl

/-- What point `t` writes back is block `t` of the score. -/
theorem flushed_eq (c : Dev nD) (t : Fin cfg0.N) :
    (dats m 0 c).flushed 7 t = ((cfg0.win 7).blk t).view.read (Elt Ideal) (scoreOf m c) := by
  rw [Value.flushed7]
  unfold out0_7
  rw [View.canon_unit_zero hz]
  simp only [View.ld_unit_zero (S := S2560x128) hz, View.ld_unit_zero (S := S128x128) hz, View.ld_unit_zero (S := S1x128) hz,
    View.ld_unit_zero (S := S1x1) hz]
  funext j
  obtain ⟨p, q, rfl⟩ : ∃ (p : Fin 2560) (q : Fin 1), j = ix2 p q := ⟨j 0, j 1, eq_ix2 (n0 := 2560) (n1 := 1) j⟩
  have e7 : win0_7.index t (0 : Fin 2) = t.val := (index_facts t).2.2.2.2.2.2.2.2.2.2.2.2.2.2.1
  show k0_pay1 (F := Ideal) (iblk m c 0 t) (iblk m c 2 t) (iblk m c 1 t) (iblk m c 3 t) (iblk m c 4 t) (iblk m c 5 t) (iblk m c 6 t) (ix2 p q)
    = scoreOf m c (((cfg0.win 7).blk t).view.emb (ix2 p q))
  refine block_row (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (iblk m c 0 t) (iblk m c 1 t) (iblk m c 2 t) (iblk m c 3 t) (iblk m c 4 t) (iblk m c 5 t) (iblk m c 6 t) t.val
    (fun p f k hk => srcBlock_apply m c t p f k hk) (fun p f k hk => dstBlock_apply m c t p f k hk)
    (fun f h => (topBlock_apply m c t f h).trans (topHalf_apply m c f h))
    (fun f h => (botBlock_apply m c t f h).trans (botHalf_apply m c f h))
    (fun h => (biasBlock_apply m c t h).trans (biasRow_apply m c h))
    (fun h => (outRowBlock_apply m c t h).trans (outRow_apply m c h))
    ((outBiasBlock_apply m c t).trans (outBias_apply m c))
    p q (((cfg0.win 7).blk t).view.emb (ix2 p q)) ?_
  show win0_7.index t (0 : Fin 2) * 2560 + 1 * p.val = t.val * 2560 + p.val
  rw [e7]; omega

/-- An edge is in point `t`'s block iff each coordinate is in the block's range on its axis. -/
theorem mem_block (t : Fin cfg0.N) (i : S320000x1.Idx) :
    i ∈ ((cfg0.win 7).blk t).view.set ↔ ∀ a : Fin 2, win0_7.index t a * S2560x1.size a ≤ (i a).val ∧ (i a).val < win0_7.index t a * S2560x1.size a + S2560x1.size a := by
  show i ∈ ((View.whole main_v5).slice (win0_7.rect t)).set ↔ _
  rw [View.set_slice_whole, Rect.mem_set_unit]
  exact Iff.rfl

/-- Every edge `e` is in the block of point `e / 2560`. -/
theorem covered (i : S320000x1.Idx) : ∃ t : Fin cfg0.N, (cfg0.win 7).flush t = true ∧ i ∈ ((cfg0.win 7).blk t).view.set := by
  have hi0 : (i 0).val < 320000 := (i 0).isLt
  have hi1 : (i 1).val < 1 := (i 1).isLt
  have hN : cfg0.N = 125 := N_0
  have hlt : (i 0).val / 2560 < cfg0.N := by rw [hN]; omega
  have e70 : win0_7.index ⟨(i 0).val / 2560, hlt⟩ (0 : Fin 2) = (i 0).val / 2560 := (index_facts ⟨(i 0).val / 2560, hlt⟩).2.2.2.2.2.2.2.2.2.2.2.2.2.2.1
  have e71 : win0_7.index ⟨(i 0).val / 2560, hlt⟩ (1 : Fin 2) = 0 := (index_facts ⟨(i 0).val / 2560, hlt⟩).2.2.2.2.2.2.2.2.2.2.2.2.2.2.2
  refine ⟨⟨(i 0).val / 2560, hlt⟩, flush0_7 _, ?_⟩
  rw [mem_block]
  intro a
  match a with
  | ⟨0, _⟩ =>
    show win0_7.index ⟨(i 0).val / 2560, hlt⟩ (0 : Fin 2) * 2560 ≤ (i 0).val ∧ (i 0).val < win0_7.index ⟨(i 0).val / 2560, hlt⟩ (0 : Fin 2) * 2560 + 2560
    rw [e70]; omega
  | ⟨1, _⟩ =>
    show win0_7.index ⟨(i 0).val / 2560, hlt⟩ (1 : Fin 2) * 1 ≤ (i 1).val ∧ (i 1).val < win0_7.index ⟨(i 0).val / 2560, hlt⟩ (1 : Fin 2) * 1 + 1
    rw [e71]; omega

/-- So the result array after the run is the score of every edge. -/
theorem final (c : Dev nD) : (dats m 0 c).arrAt 7 cfg0.N = scoreOf m c :=
  (dats m 0 c).arrAt_eq_of_cover 7 (scoreOf m c) (fun t _ => flushed_eq m c t) covered

/-- The kernel's run, read: the result array at the score, the six arguments unchanged. -/
theorem run : θ_run defs (onTc (τ := τ) (main (F := Ideal))) ⟨m, fun _ => 0, ρ⟩ fun r => ∀ c : Dev nD,
      r.2.mem ((c : Thread nD τ).loc main_v5) = scoreOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.EdgeScore.Kernel

end
-- ==== Proof.ReferenceScore.lean ====
/-
  The reference program's result, read one operation at a time, is the edge score.

  The reference joins the source and destination features of an edge into one row of 256, contracts it
  against the whole first-layer matrix, adds the bias, rectifies, contracts the hidden row against the
  output column and adds the output bias. Column `k` of the joined row is the source feature `k` for
  `k < 128` and the destination feature `k - 128` otherwise, so the contraction over 256 is the sum of the
  two contractions over 128 (`sum_halves`), which is how the score is written.
-/
import proofs.«120703_g24455543783494_cont_8to1_600_2_alg».proof.Proof.Gen.ReferenceIdeal.Read
import proofs.«120703_g24455543783494_cont_8to1_600_2_alg».proof.Proof.EdgeScore

noncomputable section

namespace Cert.EdgeScore.Reference

open Idealize.ShloMosaic Idealize.ShloMosaic.ValueIdx Cert.ReferenceIdeal Cert.ReferenceIdeal.Read Cert.EdgeScore

variable (src dst : (⟨S320000x128, .f32⟩ : BufTy).Contents (Elt Ideal)) (W1 : (⟨S256x128, .f32⟩ : BufTy).Contents (Elt Ideal))
  (b1 : (⟨S128, .f32⟩ : BufTy).Contents (Elt Ideal)) (W2 : (⟨S128x1, .f32⟩ : BufTy).Contents (Elt Ideal))
  (b2 : (⟨S1, .f32⟩ : BufTy).Contents (Elt Ideal))

/-- Column `f` of the joined row, in its first half, is the source feature `f`. -/
theorem joined_top (e : Fin 320000) (f : Fin 128) :
    val_main_v0 (F := Ideal) src dst (ix2 e (topRow f)) = src (ix2 e f) := by
  unfold val_main_v0
  exact concatenate_pair_apply_left (t := S320000x256) (s₁ := S320000x128) (s₂ := S320000x128) (1 : Fin 2) src dst
    _ (ix2 e (topRow f)) rfl (ix2 e f)
    (fun b => match b with | ⟨0, _⟩ => rfl | ⟨1, _⟩ => rfl)

/-- Column `128 + f` of the joined row is the destination feature `f`. -/
theorem joined_bot (e : Fin 320000) (f : Fin 128) :
    val_main_v0 (F := Ideal) src dst (ix2 e (botRow f)) = dst (ix2 e f) := by
  unfold val_main_v0
  exact concatenate_pair_apply_right (t := S320000x256) (s₁ := S320000x128) (s₂ := S320000x128) (1 : Fin 2) src dst
    _ (ix2 e (botRow f)) rfl rfl (ix2 e f)
    (fun b hb => match b, hb with | ⟨0, _⟩, _ => rfl | ⟨1, _⟩, hb => absurd rfl hb) (Nat.add_comm f.val 128)

/-- The indices the generated read lemmas compose, as coordinates. -/
theorem row_of_joined (e : Fin 320000) (h : Fin 128) (k : Fin 256) : lidx_main_v1 (ix2 e h) k = ix2 e k :=
  funext fun a => by match a with | ⟨0, _⟩ => rfl | ⟨1, _⟩ => rfl
theorem row_of_W1 (e : Fin 320000) (h : Fin 128) (k : Fin 256) : ridx_main_v1 (ix2 e h) k = ix2 k h :=
  funext fun a => by match a with | ⟨0, _⟩ => rfl | ⟨1, _⟩ => rfl
theorem bias_index (e : Fin 320000) (h : Fin 128) : idx_main_v2 (idx_main_v3 (ix2 e h)) = ix1 h :=
  funext fun a => by match a with | ⟨0, _⟩ => rfl
theorem hidden_index (e : Fin 320000) (q : Fin 1) (h : Fin 128) : lidx_main_v6 (ix2 e q) h = ix2 e h :=
  funext fun a => by match a with | ⟨0, _⟩ => rfl | ⟨1, _⟩ => rfl
theorem column_index (e : Fin 320000) (q : Fin 1) (h : Fin 128) : ridx_main_v6 (ix2 e q) h = ix2 h (0 : Fin 1) :=
  funext fun a => by
    match a with
    | ⟨0, _⟩ => rfl
    | ⟨1, _⟩ => exact Fin.ext (by show q.val = 0; omega)
theorem out_bias_index (e : Fin 320000) (q : Fin 1) : idx_main_v7 (idx_main_v8 (ix2 e q)) = ix1 (0 : Fin 1) :=
  funext fun a => by match a with | ⟨0, _⟩ => rfl

/-- The reference's hidden activation at edge `e`, unit `h`, is the score's first layer. -/
theorem hidden_eq (e : Fin 320000) (h : Fin 128) :
    val_main_v5 (F := Ideal) src dst W1 b1 (ix2 e h) = hidden src dst W1 b1 e h := by
  rw [val_main_v5_apply, val_main_v4_apply, val_main_v1_apply, val_main_v3_apply, val_main_v2_apply,
    val_main_call0_v0_apply, val_main_call0_cst_apply, sum_halves]
  simp only [row_of_joined, row_of_W1, bias_index, joined_top, joined_bot, Ideal.addf_def, Ideal.maximumf_def,
    Ideal.ofBits_def, Ideal.ofBits_zero_f32]
  rfl

/-- The reference's result array is the score of every edge. -/
theorem result_eq : val_main_v9 (F := Ideal) src dst W1 b1 W2 b2 = score src dst W1 b1 W2 b2 := by
  funext i
  obtain ⟨e, q, rfl⟩ : ∃ (e : Fin 320000) (q : Fin 1), i = ix2 e q := ⟨i 0, i 1, eq_ix2 i⟩
  rw [val_main_v9_apply, val_main_v6_apply, val_main_v8_apply, val_main_v7_apply]
  simp only [hidden_index, column_index, out_bias_index, hidden_eq, Ideal.addf_def]
  rfl

end Cert.EdgeScore.Reference

end
-- ==== Proof.lean ====
/-
  A fused edge scorer against its two-layer reference, over the extended reals.

  Both programs compute, for each of 320000 edges `e`,
      score e = Σ_h max (Σ_f src[e,f]·W1[f,h] + Σ_f dst[e,f]·W1[128+f,h] + b1[h]) 0 · W2[h,0] + b2[0].
  The kernel never joins the source and destination features: it multiplies each by its own half of the
  first-layer matrix, 2560 edges at a grid point, rectifies, and takes the second layer as a lane sum
  against the output column laid out as a row. The reference joins the features into rows of 256,
  contracts them against the whole matrix, rectifies, and contracts against the output column. The one law
  between them is that a sum over 256 rows is the sum over the top 128 plus the sum over the bottom 128,
  true in every commutative additive monoid, so the inputs' finiteness is never used.

  `EdgeScore` states the score and that law; `ReferenceScore` reads the reference's result, one operation
  at a time, as the score; `BlockScore` reads a row of what the kernel body stores; `KernelScore` reads
  each loaded block back through its window, covers the edges by the 125 blocks, and restates the kernel's
  run with its result array at the score. Here the five claims are put together: the two kernel frames
  are the generated ones, the reference's frame is its run with the result dropped, the idealization
  rewrote nothing, and the two runs end at one function of arguments that agree.
-/
import proofs.«120703_g24455543783494_cont_8to1_600_2_alg».proof.Defs
import proofs.«120703_g24455543783494_cont_8to1_600_2_alg».proof.Proof.Gen.Kernel
import proofs.«120703_g24455543783494_cont_8to1_600_2_alg».proof.Proof.Gen.Kernel.Skeleton
import proofs.«120703_g24455543783494_cont_8to1_600_2_alg».proof.Proof.Gen.Kernel.Launch
import proofs.«120703_g24455543783494_cont_8to1_600_2_alg».proof.Proof.Gen.Kernel.Points
import proofs.«120703_g24455543783494_cont_8to1_600_2_alg».proof.Proof.Gen.Kernel.Frame
import proofs.«120703_g24455543783494_cont_8to1_600_2_alg».proof.Proof.Gen.KernelIdeal
import proofs.«120703_g24455543783494_cont_8to1_600_2_alg».proof.Proof.Gen.KernelIdeal.Skeleton
import proofs.«120703_g24455543783494_cont_8to1_600_2_alg».proof.Proof.Gen.KernelIdeal.Launch
import proofs.«120703_g24455543783494_cont_8to1_600_2_alg».proof.Proof.Gen.KernelIdeal.Points
import proofs.«120703_g24455543783494_cont_8to1_600_2_alg».proof.Proof.Gen.KernelIdeal.Frame
import proofs.«120703_g24455543783494_cont_8to1_600_2_alg».proof.Proof.Gen.ReferenceIdeal
import proofs.«120703_g24455543783494_cont_8to1_600_2_alg».proof.Proof.Gen.Pre_finite_inputs
import proofs.«120703_g24455543783494_cont_8to1_600_2_alg».proof.Proof.Gen.KernelIdeal.Value
import proofs.«120703_g24455543783494_cont_8to1_600_2_alg».proof.Proof.Gen.ReferenceIdeal.Run
import proofs.«120703_g24455543783494_cont_8to1_600_2_alg».proof.Proof.Gen.ReferenceIdeal.Read
import proofs.«120703_g24455543783494_cont_8to1_600_2_alg».proof.Proof.KernelScore
import proofs.«120703_g24455543783494_cont_8to1_600_2_alg».proof.Proof.ReferenceScore
import Idealize.ShloMosaic.Adequacy
import Idealize.ShloMosaic.Init

noncomputable section

namespace Cert.Proof

open Idealize.ShloMosaic Idealize.SL.Sem

/-- The kernel as printed runs to the end, faults nowhere and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From arguments that agree, the kernel's result array and the reference's both end at the score of every edge. -/
theorem algebraic : Cert.algebraic_KernelIdeal_ReferenceIdeal := by
  intro m ρ m' ρ' _ hagree
  refine ⟨fun c => Cert.EdgeScore.Kernel.scoreOf m c, Cert.EdgeScore.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.EdgeScore.Reference.result_eq]
  obtain ⟨a0, a1, a2, a3, a4, a5⟩ := hagree c
  rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
